-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S1600000 32) (main_arg2 : IVec S1600000 32) (main_arg3 : FVec F S64x64 .f32) (main_arg4 : FVec F S64 .f32) (main_arg5 : FVec F S64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S50000x64 : Shape := ⟨2, ![50000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 50
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S50000x64, .f32⟩
  | .hbm, ⟨40, _⟩ => ⟨S1600000x1, .i32⟩
  | .hbm, ⟨41, _⟩ => ⟨S50000x64, .f32⟩
  | .hbm, ⟨42, _⟩ => ⟨S50000, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v26) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S50000x64, .f32⟩
  | .hbm, ⟨40, _⟩ => ⟨S1600000x1, .i32⟩
  | .hbm, ⟨41, _⟩ => ⟨S50000x64, .f32⟩
  | .hbm, ⟨42, _⟩ => ⟨S50000, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000, .f32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x1, .f32⟩
  | .hbm, ⟨78, _⟩ => ⟨S50000x64, .f32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_call3_cst : Ref sig .tc := ⟨.hbm, 53, rfl⟩
abbrev main_call3_v0 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.RowSpec.lean ====
/-
  One row of the dense tail of a graph-convolution layer, as a function on the extended reals.

  For a node the layer has an aggregated feature row `a` and its own feature row `x` (64 entries each), a
  weight matrix `w`, a bias `b`, and the normalisation's gain `g` and shift `be`:
  * `pre`    : `relu (relu (a · w + b)) + x`, the linear map, the two rectifications and the residual;
  * `mean`   : the row's sum divided by 64;
  * `var`    : the sum of squared deviations from the mean divided by 64;
  * `scaled` : `(o j - mean o) · rsqrt (var o + ε) · g j`;
  * `rowOut` : `scaled (pre …) g j + be j`, the layer-normalised row.
  Zero, 64 and ε enter as the values of their single-precision words; nothing here evaluates them.
-/
import Idealize.ShloMosaic.PureOps.Ideal

noncomputable section

namespace Cert.GcnRow

open Idealize.ShloMosaic
open scoped BigOperators

/-- The value of the word of `0.0`. -/
abbrev zeroW : EReal := Ideal.ofBits .f32 0x00000000#32
/-- The value of the word of `64.0`. -/
abbrev n64 : EReal := Ideal.ofBits .f32 0x42800000#32
/-- The value of the word nearest `1e-5`. -/
abbrev epsW : EReal := Ideal.ofBits .f32 0x3727C5AC#32

/-- The row before normalisation: `relu (relu (∑ k, a k · w k j + b j)) + x j`. -/
def pre (a x : Fin 64 → EReal) (w : Fin 64 → Fin 64 → EReal) (b : Fin 64 → EReal) (j : Fin 64) : EReal :=
  max (max ((∑ k : Fin 64, a k * w k j) + b j) zeroW) zeroW + x j

/-- A row's mean: its sum over 64. -/
def mean (o : Fin 64 → EReal) : EReal := Ideal.div (∑ j : Fin 64, o j) n64

/-- A row's variance: the sum of its squared deviations from the mean, over 64. -/
def var (o : Fin 64 → EReal) : EReal := Ideal.div (∑ j : Fin 64, (o j - mean o) * (o j - mean o)) n64

/-- The deviation from the mean times the reciprocal root of `var + ε`, times the gain. -/
def scaled (o g : Fin 64 → EReal) (j : Fin 64) : EReal :=
  (o j - mean o) * Ideal.rsqrt (var o + epsW) * g j

/-- The layer-normalised row of the tail. -/
def rowOut (a x : Fin 64 → EReal) (w : Fin 64 → Fin 64 → EReal) (b g be : Fin 64 → EReal) (j : Fin 64) : EReal :=
  scaled (pre a x w b) g j + be j

/-- `rowOut` of equal rows, weights and vectors. -/
theorem rowOut_congr {a a' x x' : Fin 64 → EReal} {w w' : Fin 64 → Fin 64 → EReal} {b b' g g' be be' : Fin 64 → EReal}
    (ha : a = a') (hx : x = x') (hw : w = w') (hb : b = b') (hg : g = g') (hbe : be = be') (j : Fin 64) :
    rowOut a x w b g be j = rowOut a' x' w' b' g' be' j := by
  subst ha hx hw hb hg hbe
  rfl

end Cert.GcnRow

end
-- ==== Proof.RefTail.lean ====
/-
  The reference's result, read row by row.

  After the sparse aggregation the reference multiplies the aggregated features by the weights, adds the bias,
  rectifies twice, adds the node's own features and normalises each row. Read at entry `(r, j)` the result is
  `GcnRow.rowOut` of row `r` of the aggregated features and of the node features, of the weights and of the
  bias, gain and shift: the product is a plain sum over the 64 inner coordinates, the two row sums start from
  zero, and every broadcast reads the column entry `(r, 0)` or the vector entry `j`.
-/
import proofs.«172414_j19636590477404_1_alg».proof.Proof.Gen.ReferenceIdeal.Read
import proofs.«172414_j19636590477404_1_alg».proof.Proof.RowSpec

noncomputable section

namespace Cert.GcnRef

open Cert.ReferenceIdeal Cert.ReferenceIdeal.Read Idealize.ShloMosaic Idealize.ShloMosaic.ValueIdx Cert.GcnRow
open scoped BigOperators

variable (x0 : (⟨S50000x64, .f32⟩ : BufTy).Contents (Elt Ideal)) (x1 x2 : (⟨S1600000, .i32⟩ : BufTy).Contents (Elt Ideal))
  (x3 : (⟨S64x64, .f32⟩ : BufTy).Contents (Elt Ideal)) (x4 x5 x6 : (⟨S64, .f32⟩ : BufTy).Contents (Elt Ideal))

/-- Row `r` of the aggregated features, as the reference computes them. -/
abbrev aggRow (r : Fin 50000) : Fin 64 → EReal := fun k => val_main_v26 (F := Ideal) x0 x1 x2 (ix2 r k)

/-- Row `r` before normalisation. -/
abbrev preRow (r : Fin 50000) : Fin 64 → EReal :=
  pre (aggRow x0 x1 x2 r) (fun k => x0 (ix2 r k)) (fun k q => x3 (ix2 k q)) (fun q => x4 (ix1 q))

/-- The residual sum at `(r, j)` is `pre` of the rows. -/
theorem pre_eq (r : Fin 50000) (j : Fin 64) :
    val_main_v33 (F := Ideal) x0 x1 x2 x3 x4 (ix2 r j) = preRow x0 x1 x2 x3 x4 r j := by
  rw [val_main_v33_apply, val_main_v32_apply, val_main_v31_apply, val_main_v30_apply, val_main_v27_apply,
    val_main_v29_apply, val_main_v28_apply, val_main_call2_v0_apply, val_main_call3_v0_apply,
    val_main_call2_cst_apply, val_main_call3_cst_apply]
  have e1 : ∀ k : Fin 64, lidx_main_v27 (ix2 r j) k = ix2 r k := fun k =>
    funext fun a => Fin.ext (by match a with | ⟨0, _⟩ => rfl | ⟨1, _⟩ => rfl)
  have e2 : ∀ k : Fin 64, ridx_main_v27 (ix2 r j) k = ix2 k j := fun k =>
    funext fun a => Fin.ext (by match a with | ⟨0, _⟩ => rfl | ⟨1, _⟩ => rfl)
  have e3 : idx_main_v28 (idx_main_v29 (ix2 r j)) = ix1 j :=
    funext fun a => Fin.ext (by match a with | ⟨0, _⟩ => rfl)
  simp only [e1, e2, e3, Ideal.addf_def, Ideal.maximumf_def, Ideal.ofBits_def, pre]

/-- The mean column at `(r, 0)` is the mean of the row. -/
theorem mean_eq (r : Fin 50000) :
    val_main_v37 (F := Ideal) x0 x1 x2 x3 x4 (ix2 r (0 : Fin 1)) = mean (preRow x0 x1 x2 x3 x4 r) := by
  rw [val_main_v37_apply, val_main_v35_apply, val_main_v34_apply, val_main_v36_apply, val_main_cst_7_apply,
    val_main_cst_6_apply]
  have e : ∀ k : Fin 64, idx_main_v34 (idx_main_v35 (ix2 r (0 : Fin 1))) k = ix2 r k := fun k =>
    funext fun a => Fin.ext (by match a with | ⟨0, _⟩ => rfl | ⟨1, _⟩ => rfl)
  have hs : (∑ k : Fin 64, (val_main_v33 (F := Ideal) x0 x1 x2 x3 x4) (idx_main_v34 (idx_main_v35 (ix2 r (0 : Fin 1))) k))
      = ∑ k : Fin 64, preRow x0 x1 x2 x3 x4 r k :=
    Finset.sum_congr rfl fun k _ => (congrArg (val_main_v33 (F := Ideal) x0 x1 x2 x3 x4) (e k)).trans (pre_eq x0 x1 x2 x3 x4 r k)
  rw [hs]
  simp only [Ideal.ofBits_def, Ideal.ofBits_zero_f32, zero_add, Ideal.hostDivf_def, mean]

/-- The centred entry at `(r, j)`. -/
theorem centred_eq (r : Fin 50000) (j : Fin 64) :
    val_main_v39 (F := Ideal) x0 x1 x2 x3 x4 (ix2 r j)
      = preRow x0 x1 x2 x3 x4 r j - mean (preRow x0 x1 x2 x3 x4 r) := by
  rw [val_main_v39_apply, val_main_v38_apply, pre_eq]
  have e : idx_main_v38 (ix2 r j) = ix2 r (0 : Fin 1) :=
    funext fun a => Fin.ext (by match a with | ⟨0, _⟩ => rfl | ⟨1, _⟩ => rfl)
  rw [e, mean_eq, Ideal.subf_def]

/-- The variance column at `(r, 0)` is the variance of the row. -/
theorem var_eq (r : Fin 50000) :
    val_main_v44 (F := Ideal) x0 x1 x2 x3 x4 (ix2 r (0 : Fin 1)) = var (preRow x0 x1 x2 x3 x4 r) := by
  rw [val_main_v44_apply, val_main_v42_apply, val_main_v41_apply, val_main_v43_apply, val_main_cst_9_apply,
    val_main_cst_8_apply]
  have e : ∀ k : Fin 64, idx_main_v41 (idx_main_v42 (ix2 r (0 : Fin 1))) k = ix2 r k := fun k =>
    funext fun a => Fin.ext (by match a with | ⟨0, _⟩ => rfl | ⟨1, _⟩ => rfl)
  have hs : (∑ k : Fin 64, (val_main_v40 (F := Ideal) x0 x1 x2 x3 x4) (idx_main_v41 (idx_main_v42 (ix2 r (0 : Fin 1))) k))
      = ∑ k : Fin 64, (preRow x0 x1 x2 x3 x4 r k - mean (preRow x0 x1 x2 x3 x4 r))
          * (preRow x0 x1 x2 x3 x4 r k - mean (preRow x0 x1 x2 x3 x4 r)) :=
    Finset.sum_congr rfl fun k _ => by
      rw [e k, val_main_v40_apply, centred_eq, Ideal.mulf_def]
  rw [hs]
  simp only [Ideal.ofBits_def, Ideal.ofBits_zero_f32, zero_add, Ideal.hostDivf_def, var]

/-- THE REFERENCE'S RESULT at `(r, j)` is the normalised row of the tail. -/
theorem result_eq (r : Fin 50000) (j : Fin 64) :
    val_main_v57 (F := Ideal) x0 x1 x2 x3 x4 x5 x6 (ix2 r j)
      = rowOut (aggRow x0 x1 x2 r) (fun k => x0 (ix2 r k)) (fun k q => x3 (ix2 k q)) (fun q => x4 (ix1 q))
          (fun q => x5 (ix1 q)) (fun q => x6 (ix1 q)) j := by
  rw [val_main_v57_apply, val_main_v54_apply, val_main_v51_apply, val_main_v46_apply, val_main_v45_apply,
    val_main_v50_apply, val_main_v49_apply, val_main_v48_apply, val_main_v47_apply, val_main_cst_10_apply,
    val_main_v53_apply, val_main_v52_apply, val_main_v56_apply, val_main_v55_apply, pre_eq]
  have e45 : idx_main_v45 (ix2 r j) = ix2 r (0 : Fin 1) :=
    funext fun a => Fin.ext (by match a with | ⟨0, _⟩ => rfl | ⟨1, _⟩ => rfl)
  have e50 : idx_main_v50 (ix2 r j) = ix2 r (0 : Fin 1) :=
    funext fun a => Fin.ext (by match a with | ⟨0, _⟩ => rfl | ⟨1, _⟩ => rfl)
  have e52 : idx_main_v52 (idx_main_v53 (ix2 r j)) = ix1 j :=
    funext fun a => Fin.ext (by match a with | ⟨0, _⟩ => rfl)
  have e55 : idx_main_v55 (idx_main_v56 (ix2 r j)) = ix1 j :=
    funext fun a => Fin.ext (by match a with | ⟨0, _⟩ => rfl)
  rw [e45, e50, e52, e55, mean_eq, var_eq]
  simp only [Ideal.addf_def, Ideal.mulf_def, Ideal.subf_def, Ideal.ofBits_def, Ideal.hostUnary_rsqrt_def, rowOut, scaled]

end Cert.GcnRef

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.TailBlock.lean ====
/-
  What the kernel body leaves in an output block, read at an entry.

  The body holds a block of 5000 rows of the aggregated features (`P0`) and of the node features (`P1`), the
  whole weight matrix (`P2`) and the bias, gain and shift as `1 × 64` rows (`P3`, `P4`, `P5`). Its arithmetic is
  row-wise: entry `(p, q)` of the block it stores is `GcnRow.rowOut` of row `p` of the two feature blocks. The
  matrix product into the zero accumulator is a plain sum over the 64 inner coordinates (the change to half
  precision of its operands is the identity on exact values), a lane sum over the second axis is the sum of a
  row's 64 entries, a kept column reads its row's value and a `1 × 64` row spread down the block reads its
  column's entry.
-/
import proofs.«172414_j19636590477404_1_alg».proof.Proof.Gen.KernelIdeal.Skeleton
import proofs.«172414_j19636590477404_1_alg».proof.Proof.RowSpec
import proofs.«172414_j19636590477404_1_alg».proof.Proof.LibDotFormats
import proofs.«172414_j19636590477404_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.GcnBlock

open Cert.KernelIdeal Cert.KernelIdeal.Gen Idealize.ShloMosaic Idealize.ShloMosaic.ValueIdx Cert.GcnRow
open scoped BigOperators

/-! ## The body's arithmetic as whole-block operations -/

/-- The linear map, the bias, the two rectifications and the residual, on whole blocks. -/
def preBlock (P0 P1 : FVec Ideal S5000x64 .f32) (P2 : FVec Ideal S64x64 .f32) (P3 : FVec Ideal S1x64 .f32) : FVec Ideal S5000x64 .f32 :=
  addf (maximumf (maximumf (addf
      (matmul dot_S5000x64_S64x64_S5000x64_1_0_0_1_n_n none
        (truncf .bf16 (shapeCast S5000x64 P0 shapeCasts_S5000x64_S5000x64) bitsLt_bf16_f32) (truncf .bf16 P2 bitsLt_bf16_f32)
        (constant S5000x64 .f32 0x00000000#32))
      (broadcastTo S5000x64 (shapeCast S1x64 P3 shapeCasts_S1x64_S1x64) broadcasts_S1x64_S5000x64))
    (broadcast S5000x64 (Scalar.ofBits .f32 0x00000000#32))) (broadcast S5000x64 (Scalar.ofBits .f32 0x00000000#32))) P1

/-- A row sum of a block, kept as a column. -/
def sumCol (o : FVec Ideal S5000x64 .f32) : FVec Ideal S5000x1 .f32 :=
  shapeCast S5000x1 (multiReduction .add [1] S5000 o 0x00000000#32 reduces_S5000x64_S5000 (.inl rfl) rfl) shapeCasts_S5000_S5000x1

/-- The column of row means. -/
def meanCol (o : FVec Ideal S5000x64 .f32) : FVec Ideal S5000x1 .f32 :=
  divf (sumCol o) (broadcast S5000x1 (Scalar.ofBits .f32 0x42800000#32))

/-- The block minus its row means. -/
def centred (o : FVec Ideal S5000x64 .f32) : FVec Ideal S5000x64 .f32 :=
  subf o (broadcastTo S5000x64 (meanCol o) broadcasts_S5000x1_S5000x64)

/-- The column of row variances. -/
def varCol (o : FVec Ideal S5000x64 .f32) : FVec Ideal S5000x1 .f32 :=
  divf (sumCol (mulf (centred o) (centred o))) (broadcast S5000x1 (Scalar.ofBits .f32 0x42800000#32))

/-- The normalised block times the gain row. -/
def normBlock (o : FVec Ideal S5000x64 .f32) (P4 : FVec Ideal S1x64 .f32) : FVec Ideal S5000x64 .f32 :=
  mulf (mulf (centred o)
      (broadcastTo S5000x64 (rsqrt (addf (varCol o) (broadcast S5000x1 (Scalar.ofBits .f32 0x3727C5AC#32)))) broadcasts_S5000x1_S5000x64))
    (broadcastTo S5000x64 (shapeCast S1x64 P4 shapeCasts_S1x64_S1x64) broadcasts_S1x64_S5000x64)

/-- The body's payload before the shift is these operations composed. -/
theorem pay2_eq (P0 P1 : FVec Ideal S5000x64 .f32) (P2 : FVec Ideal S64x64 .f32) (P3 P4 : FVec Ideal S1x64 .f32) :
    k0_pay2 (F := Ideal) P0 P1 P2 P3 P4 = normBlock (preBlock P0 P1 P2 P3) P4 := rfl

/-! ## Read at an entry -/

/-- The pre-normalisation block at `(p, q)`. -/
theorem preBlock_apply (P0 P1 : FVec Ideal S5000x64 .f32) (P2 : FVec Ideal S64x64 .f32) (P3 : FVec Ideal S1x64 .f32)
    (p : Fin 5000) (q : Fin 64) :
    preBlock P0 P1 P2 P3 (ix2 p q)
      = pre (fun k => P0 (ix2 p k)) (fun k => P1 (ix2 p k)) (fun k j => P2 (ix2 k j)) (fun j => P3 (ix2 (0 : Fin 1) j)) q := by
  unfold preBlock
  rw [shapeCast_self, shapeCast_self]
  have hm : FloatOps.matmul dot_S5000x64_S64x64_S5000x64_1_0_0_1_n_n none (truncf .bf16 P0 bitsLt_bf16_f32) (truncf .bf16 P2 bitsLt_bf16_f32)
      (constant S5000x64 .f32 0x00000000#32) (ix2 p q) = ∑ k : Fin 64, P0 (ix2 p k) * P2 (ix2 k q) :=
    (Cert.LibDotFormats.matmul_cols_zero_apply dot_S5000x64_S64x64_S5000x64_1_0_0_1_n_n rfl rfl rfl rfl rfl rfl none
      (truncf .bf16 P0 bitsLt_bf16_f32) (truncf .bf16 P2 bitsLt_bf16_f32) p q).trans (Finset.sum_congr rfl fun k _ => rfl)
  have hb : broadcastTo S5000x64 P3 broadcasts_S1x64_S5000x64 (ix2 p q) = P3 (ix2 (0 : Fin 1) q) :=
    ValueIdx.broadcastTo_1b_ab_apply P3 broadcasts_S1x64_S5000x64 p q
  show max (max (FloatOps.matmul dot_S5000x64_S64x64_S5000x64_1_0_0_1_n_n none (truncf .bf16 P0 bitsLt_bf16_f32) (truncf .bf16 P2 bitsLt_bf16_f32)
      (constant S5000x64 .f32 0x00000000#32) (ix2 p q) + broadcastTo S5000x64 P3 broadcasts_S1x64_S5000x64 (ix2 p q)) zeroW) zeroW
      + P1 (ix2 p q) = _
  rw [hm, hb]
  rfl

/-- A kept row sum at `(p, 0)` is the sum of the row's 64 entries. -/
theorem sumCol_apply (o : FVec Ideal S5000x64 .f32) (p : Fin 5000) :
    sumCol o (ix2 p (0 : Fin 1)) = ∑ q : Fin 64, o (ix2 p q) := by
  unfold sumCol
  rw [Cert.LibColumn.shapeCast_a_a1_apply _ shapeCasts_S5000_S5000x1 p (0 : Fin 1)]
  refine (Ideal.multiReduction_add_single o 0x00000000#32 reduces_S5000x64_S5000 (.inl rfl) rfl (ix1 p)).trans ?_
  refine Finset.sum_congr rfl fun q _ => congrArg o (funext fun a => Fin.ext ?_)
  match a with
  | ⟨0, _⟩ => rfl
  | ⟨1, _⟩ => rfl

/-- The mean column at `(p, 0)`. -/
theorem meanCol_apply (o : FVec Ideal S5000x64 .f32) (p : Fin 5000) :
    meanCol o (ix2 p (0 : Fin 1)) = mean (fun q => o (ix2 p q)) := by
  show Ideal.div (sumCol o (ix2 p (0 : Fin 1))) n64 = _
  rw [sumCol_apply]
  rfl

/-- The centred block at `(p, q)`. -/
theorem centred_apply (o : FVec Ideal S5000x64 .f32) (p : Fin 5000) (q : Fin 64) :
    centred o (ix2 p q) = o (ix2 p q) - mean (fun j => o (ix2 p j)) := by
  show o (ix2 p q) - broadcastTo S5000x64 (meanCol o) broadcasts_S5000x1_S5000x64 (ix2 p q) = _
  rw [Cert.LibColumn.broadcastTo_a1_ab_apply (meanCol o) broadcasts_S5000x1_S5000x64 p q, meanCol_apply]

/-- The variance column at `(p, 0)`. -/
theorem varCol_apply (o : FVec Ideal S5000x64 .f32) (p : Fin 5000) :
    varCol o (ix2 p (0 : Fin 1)) = var (fun q => o (ix2 p q)) := by
  show Ideal.div (sumCol (mulf (centred o) (centred o)) (ix2 p (0 : Fin 1))) n64 = _
  rw [sumCol_apply]
  simp only [mulf_apply, centred_apply]
  rfl

/-- The normalised block at `(p, q)`. -/
theorem normBlock_apply (o : FVec Ideal S5000x64 .f32) (P4 : FVec Ideal S1x64 .f32) (p : Fin 5000) (q : Fin 64) :
    normBlock o P4 (ix2 p q) = scaled (fun j => o (ix2 p j)) (fun j => P4 (ix2 (0 : Fin 1) j)) q := by
  unfold normBlock
  rw [shapeCast_self]
  show centred o (ix2 p q)
      * broadcastTo S5000x64 (rsqrt (addf (varCol o) (broadcast S5000x1 (Scalar.ofBits .f32 0x3727C5AC#32)))) broadcasts_S5000x1_S5000x64 (ix2 p q)
      * broadcastTo S5000x64 P4 broadcasts_S1x64_S5000x64 (ix2 p q) = _
  rw [Cert.LibColumn.broadcastTo_a1_ab_apply _ broadcasts_S5000x1_S5000x64 p q,
    ValueIdx.broadcastTo_1b_ab_apply P4 broadcasts_S1x64_S5000x64 p q, centred_apply]
  show (o (ix2 p q) - mean fun j => o (ix2 p j)) * Ideal.rsqrt (varCol o (ix2 p (0 : Fin 1)) + epsW) * P4 (ix2 (0 : Fin 1) q) = _
  rw [varCol_apply]
  rfl

/-- THE STORED PAYLOAD at `(p, q)`: the normalised row of the tail, of row `p` of the two feature blocks. -/
theorem pay_apply (P0 P1 : FVec Ideal S5000x64 .f32) (P2 : FVec Ideal S64x64 .f32) (P3 P4 P5 : FVec Ideal S1x64 .f32)
    (p : Fin 5000) (q : Fin 64) :
    k0_pay1 (F := Ideal) (k0_pay2 (F := Ideal) P0 P1 P2 P3 P4) P5 (ix2 p q)
      = rowOut (fun k => P0 (ix2 p k)) (fun k => P1 (ix2 p k)) (fun k j => P2 (ix2 k j)) (fun j => P3 (ix2 (0 : Fin 1) j))
          (fun j => P4 (ix2 (0 : Fin 1) j)) (fun j => P5 (ix2 (0 : Fin 1) j)) q := by
  rw [pay2_eq]
  unfold k0_pay1
  rw [shapeCast_self]
  show normBlock (preBlock P0 P1 P2 P3) P4 (ix2 p q) + broadcastTo S5000x64 P5 broadcasts_S1x64_S5000x64 (ix2 p q) = _
  rw [normBlock_apply, ValueIdx.broadcastTo_1b_ab_apply P5 broadcasts_S1x64_S5000x64 p q]
  simp only [preBlock_apply]
  rfl

end Cert.GcnBlock

end
-- ==== Proof.HostGlue.lean ====
/-
  What the kernel's region finds in the arrays its windows stage.

  Before the region the program computes, with host operations, the degree-normalised aggregation of the
  node features over the edges (the array the first window stages) and re-lays the bias, the gain and the shift
  from `[64]` to `[1, 64]`. The aggregation is, operation for operation, the one the reference performs before
  its own dense tail: the same scatter-adds of ones for the two degrees, the same clamp at one and reciprocal
  root, the same gather of the scaled features by the source index (a negative index first moved up by the
  number of nodes) and scatter-add by the destination index, and the same final scaling. So the staged array
  is the reference's aggregated-feature stage of the same arguments. Everything here holds for any float
  values: the operations are compared as written, none is evaluated.
-/
import proofs.«172414_j19636590477404_1_alg».proof.Proof.Gen.KernelIdeal.Frame
import proofs.«172414_j19636590477404_1_alg».proof.Proof.Gen.ReferenceIdeal.Read
import Idealize.ShloMosaic.Lib.StableHlo.Run

noncomputable section

namespace Cert.GcnGlue

open Cert.KernelIdeal Cert.KernelIdeal.Gen Idealize.ShloMosaic Idealize.ShloMosaic.TcCoe Idealize.SL.Sem
  Idealize.ShloMosaic.StableHlo

variable {F : FTy → Type} [FloatOps F]

/-! ## The aggregation, as the host operations before the region compute it -/

/-- A column of ones scattered by an index array: how often each node occurs in it; clamped below at one;
    the reciprocal root. -/
def degNorm (idx : IVec S1600000 32) : FVec F S50000 .f32 :=
  Host.rsqrt (maximumf (broadcastInDim S50000 ![] bcast_S_S50000 (constant S_ .f32 0x3F800000#32))
    (Host.scatterAdd scatter_S50000_S1600000x1_S1600000_n_0_0_1
      (broadcastInDim S50000 ![] bcast_S_S50000 (constant S_ .f32 0x00000000#32))
      (broadcastInDim S1600000x1 ![0] bcast_S1600000_S1600000x1_0 idx)
      (broadcastInDim S1600000 ![] bcast_S_S1600000 (constant S_ .f32 0x3F800000#32))))

/-- A per-node value spread along the 64 features. -/
def spread (v : FVec F S50000 .f32) : FVec F S50000x64 .f32 :=
  broadcastInDim S50000x64 ![0, 1] bcast_S50000x1_S50000x64_0_1 (broadcastInDim S50000x1 ![0] bcast_S50000_S50000x1_0 v)

/-- A negative index moved up by the number of nodes. -/
def wrapIdx (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 50000#32))) idx

/-- The degree-normalised aggregation of the node features `x` over the edges `src → dst`. -/
def aggOf (x : FVec F S50000x64 .f32) (src dst : IVec S1600000 32) : FVec F S50000x64 .f32 :=
  mulf (Host.scatterAdd scatter_S50000x64_S1600000x1_S1600000x64_1_0_0_1
      (broadcastInDim S50000x64 ![] bcast_S_S50000x64 (constant S_ .f32 0x00000000#32))
      (broadcastInDim S1600000x1 ![0] bcast_S1600000_S1600000x1_0 dst)
      (Host.gather gather_S50000x64_S1600000x1_S1600000x64_1_0_n_n_0_1_164 (mulf x (spread (degNorm src)))
        (broadcastInDim S1600000x1 ![0] bcast_S1600000_S1600000x1_0 (wrapIdx src))))
    (spread (degNorm dst))

/-- The reference's aggregated-feature stage is the same composition. -/
theorem aggOf_eq (x : FVec F S50000x64 .f32) (src dst : IVec S1600000 32) :
    aggOf x src dst = Cert.ReferenceIdeal.Read.val_main_v26 (F := F) x src dst := rfl

/-! ## The arrays as the region finds them -/

variable (m : (ℓ : Loc nD τ sig) → Buf (Elt F) ℓ)

/-- The bias row the region finds is the bias vector re-laid as `[1, 64]`. -/
theorem V_bias (c : Dev nD) :
    (V m c main_v27 : FVec F S1x64 .f32) = shapeCast S1x64 (m ((c : Thread nD τ).loc main_arg4)) shapeCasts_S64_S1x64 := by
  dsimp only [V]
  simp only [hostOps0, hostOps0_1, hostOps0_2, hostOps0_3, hostOps0_4, List.flatten_cons, List.flatten_nil, List.append_nil,
    List.cons_append, List.nil_append]
  after_results
  rfl

/-- The gain row the region finds is the gain vector re-laid as `[1, 64]`. -/
theorem V_gain (c : Dev nD) :
    (V m c main_v28 : FVec F S1x64 .f32) = shapeCast S1x64 (m ((c : Thread nD τ).loc main_arg5)) shapeCasts_S64_S1x64 := by
  dsimp only [V]
  simp only [hostOps0, hostOps0_1, hostOps0_2, hostOps0_3, hostOps0_4, List.flatten_cons, List.flatten_nil, List.append_nil,
    List.cons_append, List.nil_append]
  after_results
  rfl

/-- The shift row the region finds is the shift vector re-laid as `[1, 64]`. -/
theorem V_shift (c : Dev nD) :
    (V m c main_v29 : FVec F S1x64 .f32) = shapeCast S1x64 (m ((c : Thread nD τ).loc main_arg6)) shapeCasts_S64_S1x64 := by
  dsimp only [V]
  simp only [hostOps0, hostOps0_1, hostOps0_2, hostOps0_3, hostOps0_4, List.flatten_cons, List.flatten_nil, List.append_nil,
    List.cons_append, List.nil_append]
  after_results
  rfl

set_option maxHeartbeats 8000000 in
set_option maxRecDepth 8192 in
/-- The aggregated features the region finds are `aggOf` of the node features and the two edge-index arrays:
    each host operation's result in turn, the typed references of the two inlined clamps read through. -/
theorem V_aggOf (c : Dev nD) :
    (V m c main_v26 : FVec F S50000x64 .f32)
      = aggOf (m ((c : Thread nD τ).loc main_arg0)) (m ((c : Thread nD τ).loc main_arg1)) (m ((c : Thread nD τ).loc main_arg2)) := by
  dsimp only [V]
  simp only [hostOps0, hostOps0_1, hostOps0_2, hostOps0_3, hostOps0_4, List.flatten_cons, List.flatten_nil, List.append_nil,
    List.cons_append, List.nil_append]
  after_results_simp
  simp only [TRef.toBuf, TRef.ofBuf, cast_eq, id_eq]
  rfl

/-- So they are the reference's aggregated-feature stage of the same three arguments. -/
theorem V_agg (c : Dev nD) :
    (V m c main_v26 : FVec F S50000x64 .f32)
      = Cert.ReferenceIdeal.Read.val_main_v26 (F := F) (m ((c : Thread nD τ).loc main_arg0))
          (m ((c : Thread nD τ).loc main_arg1)) (m ((c : Thread nD τ).loc main_arg2)) :=
  (V_aggOf m c).trans (aggOf_eq _ _ _)

end Cert.GcnGlue

end
-- ==== Proof.KernelArray.lean ====
/-
  From the blocks the grid points write back to the whole result array.

  The grid has ten points; point `t` stages rows `5000 t … 5000 t + 4999` of the aggregated features and of the
  node features, the whole weight matrix and the three `1 × 64` rows, and writes back rows `5000 t …` of the
  result. The body's arithmetic is row-wise, so what point `t` writes is block `t` of ONE function of the whole
  arrays: entry `(r, j)` is `GcnRow.rowOut` of row `r` of the aggregated features and of the node features. The
  ten blocks tile the 50000 rows (row `r` lies in block `r / 5000`), so the array ends holding that function.
-/
import proofs.«172414_j19636590477404_1_alg».proof.Proof.Gen.KernelIdeal.Value
import proofs.«172414_j19636590477404_1_alg».proof.Proof.TailBlock
import proofs.«172414_j19636590477404_1_alg».proof.Proof.HostGlue
import Idealize.ShloMosaic.Lib.ValueLayout

noncomputable section

namespace Cert.GcnArray

open Cert.KernelIdeal Cert.KernelIdeal.Gen Cert.KernelIdeal.Value Idealize.ShloMosaic Idealize.ShloMosaic.TcCoe
  Idealize.SL.Sem Idealize.ShloMosaic.ValueIdx Cert.GcnRow
open Idealize.ShloMosaic.Pipeline (Dat)

-- the aggregation is only ever named below, never opened
attribute [local irreducible] Cert.ReferenceIdeal.Read.val_main_v26

section Blocks

variable {F : FTy → Type} [FloatOps F] (m : (ℓ : Loc nD τ sig) → Buf (Elt F) ℓ)

/-- The aggregated features of the launch arguments, as the host operations before the region compute them. -/
abbrev agg (c : Dev nD) : FVec F S50000x64 .f32 :=
  Cert.ReferenceIdeal.Read.val_main_v26 (F := F) (m ((c : Thread nD τ).loc main_arg0)) (m ((c : Thread nD τ).loc main_arg1))
    (m ((c : Thread nD τ).loc main_arg2))

/-! ## The windows' blocks as parts of the arrays -/

theorem hz : (![0, 0] : Fin 2 → Nat) = fun _ => 0 := funext fun a => by fin_cases a <;> rfl

/-- The block index maps, decided over the ten points: the row-blocked windows are at block `(t, 0)`, the whole
    ones at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Rows `5000 t …` of any array, read through the first window's block at point `t`. -/
theorem read_rows0 (A : FVec F S50000x64 .f32) (t : Fin cfg0.N) (p : Fin 5000) (k : Fin 64) (r : Fin 50000)
    (hr : r.val = 5000 * t.val + p.val) :
    (((cfg0.win 0).blk t).view.read (Elt F) A : FVec F S5000x64 .f32) (ix2 p k) = A (ix2 r k) := by
  obtain ⟨e0, e1, -⟩ := idx_facts t
  rw [View.read_apply]
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The same through the second window's block. -/
theorem read_rows1 (A : FVec F S50000x64 .f32) (t : Fin cfg0.N) (p : Fin 5000) (k : Fin 64) (r : Fin 50000)
    (hr : r.val = 5000 * t.val + p.val) :
    (((cfg0.win 1).blk t).view.read (Elt F) A : FVec F S5000x64 .f32) (ix2 p k) = A (ix2 r k) := by
  obtain ⟨-, -, e0, e1, -⟩ := idx_facts t
  rw [View.read_apply]
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

/-- The third window's block is its whole array. -/
theorem read_whole2 (A : FVec F S64x64 .f32) (t : Fin cfg0.N) (k q : Fin 64) :
    (((cfg0.win 2).blk t).view.read (Elt F) A : FVec F S64x64 .f32) (ix2 k q) = A (ix2 k q) := by
  obtain ⟨-, -, -, -, e0, e1, -⟩ := idx_facts t
  rw [View.read_apply]
  refine congrArg A (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The fourth, fifth and sixth windows' blocks are their whole `1 × 64` arrays. -/
theorem read_whole3 (A : FVec F S1x64 .f32) (t : Fin cfg0.N) (q : Fin 64) :
    (((cfg0.win 3).blk t).view.read (Elt F) A : FVec F S1x64 .f32) (ix2 (0 : Fin 1) q) = A (ix2 (0 : Fin 1) q) := by
  obtain ⟨-, -, -, -, -, -, e0, e1, -⟩ := idx_facts t
  rw [View.read_apply]
  refine congrArg A (funext fun a => Fin.ext ?_)
  match a with
  | ⟨0, _⟩ => show win0_3.index t (0 : Fin 2) * 1 + 1 * 0 = 0; rw [e0]
  | ⟨1, _⟩ => show win0_3.index t (1 : Fin 2) * 64 + 1 * q.val = q.val; rw [e1]; omega

theorem read_whole4 (A : FVec F S1x64 .f32) (t : Fin cfg0.N) (q : Fin 64) :
    (((cfg0.win 4).blk t).view.read (Elt F) A : FVec F S1x64 .f32) (ix2 (0 : Fin 1) q) = A (ix2 (0 : Fin 1) q) := by
  obtain ⟨-, -, -, -, -, -, -, -, e0, e1, -⟩ := idx_facts t
  rw [View.read_apply]
  refine congrArg A (funext fun a => Fin.ext ?_)
  match a with
  | ⟨0, _⟩ => show win0_4.index t (0 : Fin 2) * 1 + 1 * 0 = 0; rw [e0]
  | ⟨1, _⟩ => show win0_4.index t (1 : Fin 2) * 64 + 1 * q.val = q.val; rw [e1]; omega

theorem read_whole5 (A : FVec F S1x64 .f32) (t : Fin cfg0.N) (q : Fin 64) :
    (((cfg0.win 5).blk t).view.read (Elt F) A : FVec F S1x64 .f32) (ix2 (0 : Fin 1) q) = A (ix2 (0 : Fin 1) q) := by
  obtain ⟨-, -, -, -, -, -, -, -, -, -, e0, e1, -⟩ := idx_facts t
  rw [View.read_apply]
  refine congrArg A (funext fun a => Fin.ext ?_)
  match a with
  | ⟨0, _⟩ => show win0_5.index t (0 : Fin 2) * 1 + 1 * 0 = 0; rw [e0]
  | ⟨1, _⟩ => show win0_5.index t (1 : Fin 2) * 64 + 1 * q.val = q.val; rw [e1]; omega

/-- A `[64]` vector re-laid as `[1, 64]` reads its entry `q` at `(0, q)`. -/
theorem row_apply (v : FVec F S64 .f32) (q : Fin 64) :
    (shapeCast S1x64 v shapeCasts_S64_S1x64 : FVec F S1x64 .f32) (ix2 (0 : Fin 1) q) = v (ix1 q) :=
  shapeCast_a_1a_apply v shapeCasts_S64_S1x64 (0 : Fin 1) q

/-- Row `p` of the first window's block at point `t` is row `5000 t + p` of the aggregated features. -/
theorem blk_agg (c : Dev nD) (t : Fin cfg0.N) (p : Fin 5000) (k : Fin 64) (r : Fin 50000) (hr : r.val = 5000 * t.val + p.val) :
    (iblk m c 0 t : FVec F S5000x64 .f32) (ix2 p k) = agg m c (ix2 r k) :=
  (read_rows0 (V m c main_v26) t p k r hr).trans (congrFun (Cert.GcnGlue.V_agg m c) (ix2 r k))

/-- Row `p` of the second window's block at point `t` is row `5000 t + p` of the node features. -/
theorem blk_feats (c : Dev nD) (t : Fin cfg0.N) (p : Fin 5000) (k : Fin 64) (r : Fin 50000) (hr : r.val = 5000 * t.val + p.val) :
    (iblk m c 1 t : FVec F S5000x64 .f32) (ix2 p k) = (m ((c : Thread nD τ).loc main_arg0) : FVec F S50000x64 .f32) (ix2 r k) :=
  (read_rows1 (V m c main_arg0) t p k r hr).trans (congrFun (V_main_arg0 m c) (ix2 r k))

/-- The third window's block is the whole weight matrix. -/
theorem blk_w (c : Dev nD) (t : Fin cfg0.N) (k q : Fin 64) :
    (iblk m c 2 t : FVec F S64x64 .f32) (ix2 k q) = (m ((c : Thread nD τ).loc main_arg3) : FVec F S64x64 .f32) (ix2 k q) :=
  (read_whole2 (V m c main_arg3) t k q).trans (congrFun (V_main_arg3 m c) (ix2 k q))

/-- The fourth window's block is the bias as a row. -/
theorem blk_bias (c : Dev nD) (t : Fin cfg0.N) (q : Fin 64) :
    (iblk m c 3 t : FVec F S1x64 .f32) (ix2 (0 : Fin 1) q) = (m ((c : Thread nD τ).loc main_arg4) : FVec F S64 .f32) (ix1 q) :=
  ((read_whole3 (V m c main_v27) t q).trans (congrFun (Cert.GcnGlue.V_bias m c) (ix2 (0 : Fin 1) q))).trans (row_apply _ q)

/-- The fifth window's block is the gain as a row. -/
theorem blk_gain (c : Dev nD) (t : Fin cfg0.N) (q : Fin 64) :
    (iblk m c 4 t : FVec F S1x64 .f32) (ix2 (0 : Fin 1) q) = (m ((c : Thread nD τ).loc main_arg5) : FVec F S64 .f32) (ix1 q) :=
  ((read_whole4 (V m c main_v28) t q).trans (congrFun (Cert.GcnGlue.V_gain m c) (ix2 (0 : Fin 1) q))).trans (row_apply _ q)

/-- The sixth window's block is the shift as a row. -/
theorem blk_shift (c : Dev nD) (t : Fin cfg0.N) (q : Fin 64) :
    (iblk m c 5 t : FVec F S1x64 .f32) (ix2 (0 : Fin 1) q) = (m ((c : Thread nD τ).loc main_arg6) : FVec F S64 .f32) (ix1 q) :=
  ((read_whole5 (V m c main_v29) t q).trans (congrFun (Cert.GcnGlue.V_shift m c) (ix2 (0 : Fin 1) q))).trans (row_apply _ q)

/-- What point `t` writes back, entry by entry: the stored payload of the point's six input blocks. (The output
    window's blocks are never cut, so the staging buffer is written back whole.) -/
theorem flushed_at (c : Dev nD) (t : Fin cfg0.N) (y : ((cfg0.win 6).xblock (grid0.coords t)).Idx) :
    (dats m 0 c).flushed 6 t y
      = k0_pay1 (k0_pay2 (iblk m c 0 t) (iblk m c 1 t) (iblk m c 2 t) (iblk m c 3 t) (iblk m c 4 t)) (iblk m c 5 t) y := by
  rw [flushed6]
  unfold out0_6
  rw [View.canon_unit_zero hz]
  simp only [View.ld_unit_zero (S := S5000x64) hz, View.ld_unit_zero (S := S64x64) hz, View.ld_unit_zero (S := S1x64) hz]

/-- Entry `y` of the output window's block at point `t` is entry `(5000 t + y₀, y₁)` of the array. -/
theorem emb_out (t : Fin cfg0.N) (y : ((cfg0.win 6).xblock (grid0.coords t)).Idx) (r : Fin 50000) (q : Fin 64)
    (hr : r.val = 5000 * t.val + (y 0).val) (hq : q.val = (y 1).val) :
    ((cfg0.win 6).blk t).view.emb y = ix2 r q := by
  obtain ⟨-, -, -, -, -, -, -, -, -, -, -, -, e0, e1⟩ := idx_facts t
  funext a; apply Fin.ext
  match a with
  | ⟨0, _⟩ => show win0_6.index t (0 : Fin 2) * 5000 + 1 * (y 0).val = r.val; rw [e0, hr]; omega
  | ⟨1, _⟩ => show win0_6.index t (1 : Fin 2) * 64 + 1 * (y 1).val = q.val; rw [e1, hq]; omega

/-- Any array read through the output window's block at point `t`: entry `y` of the block is entry
    `(5000 t + y₀, y₁)` of the array. -/
theorem read_out (G : FVec F S50000x64 .f32) (t : Fin cfg0.N) (y : ((cfg0.win 6).xblock (grid0.coords t)).Idx) (r : Fin 50000) (q : Fin 64)
    (hr : r.val = 5000 * t.val + (y 0).val) (hq : q.val = (y 1).val) :
    (((cfg0.win 6).blk t).view.read (Elt F) G : FVec F S5000x64 .f32) y = G (ix2 r q) := by
  rw [View.read_apply]
  exact congrArg G (emb_out t y r q hr hq)

/-- A block index is its two coordinates. -/
theorem blk_idx_eq (t : Fin cfg0.N) (y : ((cfg0.win 6).xblock (grid0.coords t)).Idx) (p : Fin 5000) (q : Fin 64)
    (hp : p.val = (y 0).val) (hq : q.val = (y 1).val) : y = ix2 p q :=
  funext fun a => Fin.ext (by match a with | ⟨0, _⟩ => exact hp.symm | ⟨1, _⟩ => exact hq.symm)

end Blocks

/-! ## What a point writes back, and the whole array -/

variable (m : (ℓ : Loc nD τ sig) → Buf (Elt Ideal) ℓ) (ρ : Dev nD → PrngReg)

/-- What the result array ends holding, as a function of the launch arguments: entry `(r, j)` is the normalised
    row of the tail, of row `r` of the aggregated features and of the node features. -/
def result (c : Dev nD) : S50000x64.Idx → EReal := fun i =>
  rowOut (fun k => agg m c (ix2 ⟨(i 0).val, idx2_lt0 i⟩ k))
    (fun k => (m ((c : Thread nD τ).loc main_arg0) : S50000x64.Idx → EReal) (ix2 ⟨(i 0).val, idx2_lt0 i⟩ k))
    (fun k q => (m ((c : Thread nD τ).loc main_arg3) : S64x64.Idx → EReal) (ix2 k q))
    (fun q => (m ((c : Thread nD τ).loc main_arg4) : S64.Idx → EReal) (ix1 q))
    (fun q => (m ((c : Thread nD τ).loc main_arg5) : S64.Idx → EReal) (ix1 q))
    (fun q => (m ((c : Thread nD τ).loc main_arg6) : S64.Idx → EReal) (ix1 q)) ⟨(i 1).val, idx2_lt1 i⟩

theorem result_ix2 (c : Dev nD) (r : Fin 50000) (j : Fin 64) :
    result m c (ix2 r j)
      = rowOut (fun k => agg m c (ix2 r k))
          (fun k => (m ((c : Thread nD τ).loc main_arg0) : S50000x64.Idx → EReal) (ix2 r k))
          (fun k q => (m ((c : Thread nD τ).loc main_arg3) : S64x64.Idx → EReal) (ix2 k q))
          (fun q => (m ((c : Thread nD τ).loc main_arg4) : S64.Idx → EReal) (ix1 q))
          (fun q => (m ((c : Thread nD τ).loc main_arg5) : S64.Idx → EReal) (ix1 q))
          (fun q => (m ((c : Thread nD τ).loc main_arg6) : S64.Idx → EReal) (ix1 q)) j := rfl

/-- WHAT POINT `t` WRITES BACK is block `t` of `result`. -/
theorem flushed_eq (c : Dev nD) (t : Fin cfg0.N) :
    (dats m 0 c).flushed 6 t = ((cfg0.win 6).blk t).view.read (Elt Ideal) (result m c) := by
  funext y
  have hy0 : (y 0).val < 5000 := (y 0).isLt
  have hy1 : (y 1).val < 64 := (y 1).isLt
  have ht : t.val < 10 := by have h := t.isLt; have hN : cfg0.N = 10 := N_0; omega
  -- the written entry is the payload at `(y₀, y₁)` …
  have h1 := congrArg (k0_pay1 (F := Ideal) (k0_pay2 (F := Ideal) (iblk m c 0 t) (iblk m c 1 t) (iblk m c 2 t) (iblk m c 3 t) (iblk m c 4 t)) (iblk m c 5 t))
      (blk_idx_eq t y ⟨(y 0).val, hy0⟩ ⟨(y 1).val, hy1⟩ rfl rfl)
  -- … which is the normalised row of row `y₀` of the blocks …
  have key := Cert.GcnBlock.pay_apply (iblk m c 0 t) (iblk m c 1 t) (iblk m c 2 t) (iblk m c 3 t) (iblk m c 4 t) (iblk m c 5 t)
      ⟨(y 0).val, hy0⟩ ⟨(y 1).val, hy1⟩
  -- … and the blocks' rows are rows `5000 t + y₀` of the arrays
  have h2 := rowOut_congr (funext fun k => blk_agg m c t ⟨(y 0).val, hy0⟩ k ⟨5000 * t.val + (y 0).val, by omega⟩ rfl)
    (funext fun k => blk_feats m c t ⟨(y 0).val, hy0⟩ k ⟨5000 * t.val + (y 0).val, by omega⟩ rfl)
    (funext fun k => funext fun q => blk_w m c t k q) (funext fun q => blk_bias m c t q) (funext fun q => blk_gain m c t q)
    (funext fun q => blk_shift m c t q) (⟨(y 1).val, hy1⟩ : Fin 64)
  have h3 := (read_out (F := Ideal) (result m c) t y ⟨5000 * t.val + (y 0).val, by omega⟩ ⟨(y 1).val, hy1⟩ rfl rfl).trans
    (result_ix2 m c ⟨5000 * t.val + (y 0).val, by omega⟩ ⟨(y 1).val, hy1⟩)
  exact ((flushed_at m c t y).trans ((h1.trans key).trans h2)).trans h3.symm

/-- An index of the array is in point `t`'s block iff each coordinate is in the block's range on its axis. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v30).slice (win0_6.rect t)).set ↔ _
  rw [View.set_slice_whole, Rect.mem_set_unit]
  exact Iff.rfl

/-- Every point's block index is reached. -/
theorem idx_onto : ∀ q0 : Fin 10, ∃ t : Fin cfg0.N, win0_6.index t (0 : Fin 2) = q0.val ∧ win0_6.index t (1 : Fin 2) = 0 :=
  (by decide +kernel : ∀ q0 : Fin 10, ∃ t : Fin grid0.N, win0_6.index t (0 : Fin 2) = q0.val ∧ win0_6.index t (1 : Fin 2) = 0)

/-- THE ARRAY after the run holds `result`: the ten row blocks tile it. -/
theorem final (c : Dev nD) : (dats m 0 c).arrAt 6 cfg0.N = result m c :=
  (dats m 0 c).arrAt_eq_of_cover 6 (result m c) (fun t _ => flushed_eq m c t) fun i => by
    have hi0 : (i 0).val < 50000 := (i 0).isLt
    have hi1 : (i 1).val < 64 := (i 1).isLt
    obtain ⟨t, q0, q1⟩ := idx_onto ⟨(i 0).val / 5000, by omega⟩
    refine ⟨t, flush0_6 t, ?_⟩
    rw [mem_blk]
    intro a
    match a with
    | ⟨0, _⟩ => show win0_6.index t (0 : Fin 2) * 5000 ≤ (i 0).val ∧ (i 0).val < win0_6.index t (0 : Fin 2) * 5000 + 5000; rw [q0]; show (i 0).val / 5000 * 5000 ≤ (i 0).val ∧ (i 0).val < (i 0).val / 5000 * 5000 + 5000; omega
    | ⟨1, _⟩ => show win0_6.index t (1 : Fin 2) * 64 ≤ (i 1).val ∧ (i 1).val < win0_6.index t (1 : Fin 2) * 64 + 64; rw [q1]; omega

/-- The run, read: the result array at `result` of the launch arguments, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.GcnArray

end
-- ==== Proof.lean ====
/-
  A graph-convolution layer with a fused dense tail, against its plain reference, over the extended reals.

  Both programs first aggregate, with the same host operations, the degree-normalised node features over the
  edges. The kernel then runs the dense tail — the product with the weights, the bias, two rectifications, the
  residual and the normalisation of each row — on ten blocks of 5000 rows; the reference runs the same tail on
  the whole arrays. The tail is row-wise, so the ten blocks the kernel writes are the blocks of one function of
  the whole arrays (`GcnArray.result`, whose entry `(r, j)` is `GcnRow.rowOut` of row `r`), and the reference's
  result read at `(r, j)` is the same `rowOut` (`GcnRef.result_eq`). No algebraic law is needed beyond re-indexing
  the sums, and the precondition is not used. The idealisation rewrote nothing, so `preserves` is trivial; the two
  kernel frames are the generated ones, and the reference's frame is its generated run with the result dropped.
-/
import proofs.«172414_j19636590477404_1_alg».proof.Defs
import proofs.«172414_j19636590477404_1_alg».proof.Proof.Gen.Kernel
import proofs.«172414_j19636590477404_1_alg».proof.Proof.Gen.Kernel.Skeleton
import proofs.«172414_j19636590477404_1_alg».proof.Proof.Gen.Kernel.Launch
import proofs.«172414_j19636590477404_1_alg».proof.Proof.Gen.Kernel.Points
import proofs.«172414_j19636590477404_1_alg».proof.Proof.Gen.Kernel.Frame
import proofs.«172414_j19636590477404_1_alg».proof.Proof.Gen.KernelIdeal
import proofs.«172414_j19636590477404_1_alg».proof.Proof.Gen.KernelIdeal.Skeleton
import proofs.«172414_j19636590477404_1_alg».proof.Proof.Gen.KernelIdeal.Launch
import proofs.«172414_j19636590477404_1_alg».proof.Proof.Gen.KernelIdeal.Points
import proofs.«172414_j19636590477404_1_alg».proof.Proof.Gen.KernelIdeal.Frame
import proofs.«172414_j19636590477404_1_alg».proof.Proof.Gen.ReferenceIdeal
import proofs.«172414_j19636590477404_1_alg».proof.Proof.Gen.Pre_finite_inputs
import proofs.«172414_j19636590477404_1_alg».proof.Proof.Gen.KernelIdeal.Value
import proofs.«172414_j19636590477404_1_alg».proof.Proof.Gen.ReferenceIdeal.Run
import proofs.«172414_j19636590477404_1_alg».proof.Proof.Gen.ReferenceIdeal.Read
import proofs.«172414_j19636590477404_1_alg».proof.Proof.RefTail
import proofs.«172414_j19636590477404_1_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx

-- the aggregated features are only ever named below, never opened
attribute [local irreducible] Cert.ReferenceIdeal.Read.val_main_v26

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the tail of the aggregated features and the
    reference's at the same tail: at every entry both are the normalised row of that entry's node. -/
theorem algebraic : Cert.algebraic_KernelIdeal_ReferenceIdeal := by
  intro m ρ m' ρ' _ hagree
  refine ⟨fun c => Cert.GcnArray.result m c, Cert.GcnArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq]
  obtain ⟨h0, h1, h2, h3, h4, h5, h6⟩ := hagree c
  rw [h0, h1, h2, h3, h4, h5, h6]
  refine funext fun (i : Cert.KernelIdeal.S50000x64.Idx) => ?_
  obtain ⟨r, j, rfl⟩ : ∃ (r : Fin 50000) (j : Fin 64), i = ix2 r j := ⟨i 0, i 1, eq_ix2 i⟩
  exact (Cert.GcnRef.result_eq _ _ _ _ _ _ _ r j).trans (Cert.GcnArray.result_ix2 m c r j).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
